-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel

variable [Facts]

def fn {F : FTy → Type} [FloatOps F] (main_arg0 : FVec F S4096x200x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  main_v3
-- ==== Kernel.lean ====
abbrev S4096x200x64 : Shape := ⟨3, ![4096, 200, 64]⟩
abbrev S4096x512 : Shape := ⟨2, ![4096, 512]⟩
abbrev S128x200x64 : Shape := ⟨3, ![128, 200, 64]⟩
abbrev S128x512 : Shape := ⟨2, ![128, 512]⟩
abbrev S128x50x64 : Shape := ⟨3, ![128, 50, 64]⟩
abbrev S128x64 : Shape := ⟨2, ![128, 64]⟩
abbrev S128x75x64 : Shape := ⟨3, ![128, 75, 64]⟩
abbrev S128x100x64 : Shape := ⟨3, ![128, 100, 64]⟩

abbrev nBuf : Space → Nat
  | .hbm => 2
  | .vmem => 4
  | .smem => 0
  | _ => 0

abbrev bufTy : (tb : Table) → Fin (tcTables nBuf tb) → BufTy
  | .hbm, ⟨0, _⟩ => ⟨S4096x200x64, .f32⟩
  | .hbm, ⟨1, _⟩ => ⟨S4096x512, .f32⟩
  | .local _ .vmem, ⟨0, _⟩ => ⟨S128x200x64, .f32⟩
  | .local _ .vmem, ⟨1, _⟩ => ⟨S128x200x64, .f32⟩
  | .local _ .vmem, ⟨2, _⟩ => ⟨S128x512, .f32⟩
  | .local _ .vmem, ⟨3, _⟩ => ⟨S128x512, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x200x64_S128x50x64_0_0_0 : ∀ a, (![0, 0, 0] : Fin 3 → Nat) a + S128x50x64.size a ≤ S128x200x64.size a
  h_S128x50x64 : 0 < S128x50x64.numel
  reduces_S128x50x64_S128x64 : S128x50x64.Reduces [1] S128x64
  inb_S128x200x64_S128x75x64_0_25_0 : ∀ a, (![0, 25, 0] : Fin 3 → Nat) a + S128x75x64.size a ≤ S128x200x64.size a
  h_S128x75x64 : 0 < S128x75x64.numel
  reduces_S128x75x64_S128x64 : S128x75x64.Reduces [1] S128x64
  inb_S128x200x64_S128x100x64_0_50_0 : ∀ a, (![0, 50, 0] : Fin 3 → Nat) a + S128x100x64.size a ≤ S128x200x64.size a
  h_S128x100x64 : 0 < S128x100x64.numel
  reduces_S128x100x64_S128x64 : S128x100x64.Reduces [1] S128x64
  inb_S128x200x64_S128x200x64_0_0_0 : ∀ a, (![0, 0, 0] : Fin 3 → Nat) a + S128x200x64.size a ≤ S128x200x64.size a
  h_S128x200x64 : 0 < S128x200x64.numel
  reduces_S128x200x64_S128x64 : S128x200x64.Reduces [1] S128x64
  inb_S128x200x64_S128x100x64_0_100_0 : ∀ a, (![0, 100, 0] : Fin 3 → Nat) a + S128x100x64.size a ≤ S128x200x64.size a
  inb_S128x200x64_S128x50x64_0_150_0 : ∀ a, (![0, 150, 0] : Fin 3 → Nat) a + S128x50x64.size a ≤ S128x200x64.size a
  inb_S128x200x64_S128x100x64_0_0_0 : ∀ a, (![0, 0, 0] : Fin 3 → Nat) a + S128x100x64.size a ≤ S128x200x64.size a
  inb_S128x200x64_S128x100x64_0_75_0 : ∀ a, (![0, 75, 0] : Fin 3 → Nat) a + S128x100x64.size a ≤ S128x200x64.size a
  concatenates_S128x64_S128x64_S128x64_S128x64_S128x64_S128x64_S128x64_S128x64_S128x512_d1 : Shape.Concatenates [S128x64, S128x64, S128x64, S128x64, S128x64, S128x64, S128x64, S128x64] S128x512 1
  inb_S128x512_S128x512_0_0 : ∀ a, (![0, 0] : Fin 2 → Nat) a + S128x512.size a ≤ S128x512.size a
  h_S128x512 : 0 < S128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200x64.size a ≤ S4096x200x64.size a
  hwx0_0 : ∀ i : grid0.Coords, EltTy.bits .f32 = 32 ∨ (Rect.block (s := S4096x200x64) S128x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x512.size a
  hwx0_1 : ∀ i : grid0.Coords, EltTy.bits .f32 = 32 ∨ (Rect.block (s := S4096x512) S128x512.size (cc0_transform_1 i) (hinb0_1 i)).WholeWords (EltTy.packing .f32)

variable [Facts₀]

abbrev win0_0 : Pipeline.Window sig grid0 :=
  Pipeline.Window.ofSpec (Memref.whole main_arg0) S128x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S4096x50x64 : Shape := ⟨3, ![4096, 50, 64]⟩
abbrev S_ : Shape := ⟨0, ![]⟩
abbrev S4096x64 : Shape := ⟨2, ![4096, 64]⟩
abbrev S4096x75x64 : Shape := ⟨3, ![4096, 75, 64]⟩
abbrev S4096x100x64 : Shape := ⟨3, ![4096, 100, 64]⟩
abbrev S4096x512 : Shape := ⟨2, ![4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x50x64, .f32⟩
  | .hbm, ⟨2, _⟩ => ⟨S_, .f32⟩
  | .hbm, ⟨3, _⟩ => ⟨S4096x64, .f32⟩
  | .hbm, ⟨4, _⟩ => ⟨S4096x75x64, .f32⟩
  | .hbm, ⟨5, _⟩ => ⟨S_, .f32⟩
  | .hbm, ⟨6, _⟩ => ⟨S4096x64, .f32⟩
  | .hbm, ⟨7, _⟩ => ⟨S4096x100x64, .f32⟩
  | .hbm, ⟨8, _⟩ => ⟨S_, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S4096x100x64, .f32⟩
  | .hbm, ⟨13, _⟩ => ⟨S_, .f32⟩
  | .hbm, ⟨14, _⟩ => ⟨S4096x64, .f32⟩
  | .hbm, ⟨15, _⟩ => ⟨S4096x50x64, .f32⟩
  | .hbm, ⟨16, _⟩ => ⟨S_, .f32⟩
  | .hbm, ⟨17, _⟩ => ⟨S4096x64, .f32⟩
  | .hbm, ⟨18, _⟩ => ⟨S4096x100x64, .f32⟩
  | .hbm, ⟨19, _⟩ => ⟨S_, .f32⟩
  | .hbm, ⟨20, _⟩ => ⟨S4096x64, .f32⟩
  | .hbm, ⟨21, _⟩ => ⟨S4096x100x64, .f32⟩
  | .hbm, ⟨22, _⟩ => ⟨S_, .f32⟩
  | .hbm, ⟨23, _⟩ => ⟨S4096x64, .f32⟩
  | .hbm, ⟨24, _⟩ => ⟨S4096x512, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  slices_S4096x200x64_S4096x50x64_0_0_0 : S4096x200x64.Slices ![0, 0, 0] S4096x50x64
  reducesTo_S4096x50x64_S4096x64_d1 : S4096x50x64.ReducesTo [1] S4096x64
  h_S_ : 0 < S_.numel
  slices_S4096x200x64_S4096x75x64_0_25_0 : S4096x200x64.Slices ![0, 25, 0] S4096x75x64
  reducesTo_S4096x75x64_S4096x64_d1 : S4096x75x64.ReducesTo [1] S4096x64
  slices_S4096x200x64_S4096x100x64_0_50_0 : S4096x200x64.Slices ![0, 50, 0] S4096x100x64
  reducesTo_S4096x100x64_S4096x64_d1 : S4096x100x64.ReducesTo [1] S4096x64
  reducesTo_S4096x200x64_S4096x64_d1 : S4096x200x64.ReducesTo [1] S4096x64
  slices_S4096x200x64_S4096x100x64_0_100_0 : S4096x200x64.Slices ![0, 100, 0] S4096x100x64
  slices_S4096x200x64_S4096x50x64_0_150_0 : S4096x200x64.Slices ![0, 150, 0] S4096x50x64
  slices_S4096x200x64_S4096x100x64_0_0_0 : S4096x200x64.Slices ![0, 0, 0] S4096x100x64
  slices_S4096x200x64_S4096x100x64_0_75_0 : S4096x200x64.Slices ![0, 75, 0] S4096x100x64
  concatenates_S4096x64_S4096x64_S4096x64_S4096x64_S4096x64_S4096x64_S4096x64_S4096x64_S4096x512_d1 : Shape.Concatenates [S4096x64, S4096x64, S4096x64, S4096x64, S4096x64, S4096x64, S4096x64, S4096x64] S4096x512 1

variable [Facts₀]

class Facts : Prop extends Facts₀ where

variable [Facts]
-- ==== Proof.SliceSums.lean ====
/-
  Eight overlapping windows of rows of a [4096, 200, 64] array, each added up over its rows and the eight
  [4096, 64] sums laid side by side along the last axis: entry (b, 64·w + c) of the result is the sum over the rows
  r of window w of the entry (b, r, c). The windows are the row ranges
  [0, 50), [25, 100), [50, 150), [0, 200), [100, 200), [150, 200), [0, 100), [75, 175).
  This module only states that function, over the extended reals; it reads no program.
-/
import Idealize.ShloMosaic.PureOps.Ideal
import Idealize.ShloMosaic.Lib.ValueIdx

noncomputable section

namespace Cert.SliceSums

open Idealize.ShloMosaic Idealize.ShloMosaic.ValueIdx
open scoped BigOperators

/-- The array's shape: batch, row, column. -/
abbrev SIn : Shape := ⟨3, ![4096, 200, 64]⟩
/-- The result's shape: batch, then window and column joined (column fastest). -/
abbrev SOut : Shape := ⟨2, ![4096, 512]⟩

/-- The rows `s, …, s + n - 1` of batch entry `b` at column `c`, added up. -/
def windowSum (x : SIn.Idx → EReal) (s n : Nat) (h : s + n ≤ 200) (b : Fin 4096) (c : Fin 64) : EReal :=
  ∑ k : Fin n, x (ix3 b ⟨s + k.val, by have := k.isLt; omega⟩ c)

/-- The eight window sums, by the window's number. -/
def windows (x : SIn.Idx → EReal) : Fin 8 → Fin 4096 → Fin 64 → EReal := fun w => match w with
  | ⟨0, _⟩ => windowSum x 0 50 (by omega)
  | ⟨1, _⟩ => windowSum x 25 75 (by omega)
  | ⟨2, _⟩ => windowSum x 50 100 (by omega)
  | ⟨3, _⟩ => windowSum x 0 200 (by omega)
  | ⟨4, _⟩ => windowSum x 100 100 (by omega)
  | ⟨5, _⟩ => windowSum x 150 50 (by omega)
  | ⟨6, _⟩ => windowSum x 0 100 (by omega)
  | ⟨7, _⟩ => windowSum x 75 100 (by omega)

/-- The whole result: at `(b, j)` the sum of window `j / 64` at column `j % 64`. -/
def G (x : SIn.Idx → EReal) : SOut.Idx → EReal := fun j =>
  windows x ⟨(j 1).val / 64, by have h : (j 1).val < 512 := (j 1).isLt; omega⟩ ⟨(j 0).val, (j 0).isLt⟩
    ⟨(j 1).val % 64, Nat.mod_lt _ (by decide)⟩

end Cert.SliceSums

end
-- ==== Proof.RefSums.lean ====
/-
  The reference computes the eight window sums one after the other — a slice of the rows, then a sum over the
  row axis from zero — and joins the eight [4096, 64] results along the last axis. Read at an index (b, j), the
  join picks result j / 64 at column j % 64; that result is zero plus the sum over the window's rows, and the
  slice only shifts the row by the window's first row. So the reference's last stage is the function
  `SliceSums.G` of the argument array.
-/
import proofs.«100574_j39462159515841_1_alg».proof.Proof.Gen.ReferenceIdeal.Read
import proofs.«100574_j39462159515841_1_alg».proof.Proof.SliceSums
import Idealize.ShloMosaic.Lib.Pipeline.Value
import Idealize.ShloMosaic.PureOps.Ideal.Laws

noncomputable section

namespace Cert.RefSums

open Cert.ReferenceIdeal Cert.ReferenceIdeal.Gen Cert.ReferenceIdeal.Read Cert.SliceSums
open Idealize.ShloMosaic Idealize.ShloMosaic.ValueIdx
open scoped BigOperators

/-- The eight results the reference joins, by their place in the join. -/
def stages (x : SIn.Idx → EReal) : Fin 8 → (S4096x64.Idx → EReal) := fun w => match w with
  | ⟨0, _⟩ => val_main_v1 (F := Ideal) x
  | ⟨1, _⟩ => val_main_v3 (F := Ideal) x
  | ⟨2, _⟩ => val_main_v5 (F := Ideal) x
  | ⟨3, _⟩ => val_main_v6 (F := Ideal) x
  | ⟨4, _⟩ => val_main_v8 (F := Ideal) x
  | ⟨5, _⟩ => val_main_v10 (F := Ideal) x
  | ⟨6, _⟩ => val_main_v12 (F := Ideal) x
  | ⟨7, _⟩ => val_main_v14 (F := Ideal) x

/-- Result `w` of the reference at batch entry `b`, column `c` is the sum of window `w`: the sum starts from
    zero, and the slice moves row `k` of the window to row `s + k` of the array. -/
theorem stage_eq (x : SIn.Idx → EReal) (b : Fin 4096) (c : Fin 64) :
    ∀ w : Fin 8, stages x w (ix2 b c) = windows x w b c
  | ⟨0, _⟩ => by
    show val_main_v1 (F := Ideal) x (ix2 b c) = windowSum x 0 50 (by omega) b c
    rw [val_main_v1_apply]
    refine (congrArg (· + _) (show val_main_cst (F := Ideal) _ = (0 : EReal) from Ideal.ofBits_zero_f32)).trans ?_
    rw [zero_add]
    unfold windowSum
    refine Finset.sum_congr rfl fun k _ => ?_
    rw [val_main_v0_apply]
    refine congrArg x (funext fun a => Fin.ext ?_)
    match a with
    | ⟨0, _⟩ => rfl
    | ⟨1, _⟩ => show k.val = 0 + k.val; omega
    | ⟨2, _⟩ => rfl
  | ⟨1, _⟩ => by
    show val_main_v3 (F := Ideal) x (ix2 b c) = windowSum x 25 75 (by omega) b c
    rw [val_main_v3_apply]
    refine (congrArg (· + _) (show val_main_cst_0 (F := Ideal) _ = (0 : EReal) from Ideal.ofBits_zero_f32)).trans ?_
    rw [zero_add]
    unfold windowSum
    refine Finset.sum_congr rfl fun k _ => ?_
    rw [val_main_v2_apply]
    refine congrArg x (funext fun a => Fin.ext ?_)
    match a with
    | ⟨0, _⟩ => rfl
    | ⟨1, _⟩ => rfl
    | ⟨2, _⟩ => rfl
  | ⟨2, _⟩ => by
    show val_main_v5 (F := Ideal) x (ix2 b c) = windowSum x 50 100 (by omega) b c
    rw [val_main_v5_apply]
    refine (congrArg (· + _) (show val_main_cst_1 (F := Ideal) _ = (0 : EReal) from Ideal.ofBits_zero_f32)).trans ?_
    rw [zero_add]
    unfold windowSum
    refine Finset.sum_congr rfl fun k _ => ?_
    rw [val_main_v4_apply]
    refine congrArg x (funext fun a => Fin.ext ?_)
    match a with
    | ⟨0, _⟩ => rfl
    | ⟨1, _⟩ => rfl
    | ⟨2, _⟩ => rfl
  | ⟨3, _⟩ => by
    show val_main_v6 (F := Ideal) x (ix2 b c) = windowSum x 0 200 (by omega) b c
    rw [val_main_v6_apply]
    refine (congrArg (· + _) (show val_main_cst_2 (F := Ideal) _ = (0 : EReal) from Ideal.ofBits_zero_f32)).trans ?_
    rw [zero_add]
    unfold windowSum
    refine Finset.sum_congr rfl fun k _ => ?_
    refine congrArg x (funext fun a => Fin.ext ?_)
    match a with
    | ⟨0, _⟩ => rfl
    | ⟨1, _⟩ => show k.val = 0 + k.val; omega
    | ⟨2, _⟩ => rfl
  | ⟨4, _⟩ => by
    show val_main_v8 (F := Ideal) x (ix2 b c) = windowSum x 100 100 (by omega) b c
    rw [val_main_v8_apply]
    refine (congrArg (· + _) (show val_main_cst_3 (F := Ideal) _ = (0 : EReal) from Ideal.ofBits_zero_f32)).trans ?_
    rw [zero_add]
    unfold windowSum
    refine Finset.sum_congr rfl fun k _ => ?_
    rw [val_main_v7_apply]
    refine congrArg x (funext fun a => Fin.ext ?_)
    match a with
    | ⟨0, _⟩ => rfl
    | ⟨1, _⟩ => rfl
    | ⟨2, _⟩ => rfl
  | ⟨5, _⟩ => by
    show val_main_v10 (F := Ideal) x (ix2 b c) = windowSum x 150 50 (by omega) b c
    rw [val_main_v10_apply]
    refine (congrArg (· + _) (show val_main_cst_4 (F := Ideal) _ = (0 : EReal) from Ideal.ofBits_zero_f32)).trans ?_
    rw [zero_add]
    unfold windowSum
    refine Finset.sum_congr rfl fun k _ => ?_
    rw [val_main_v9_apply]
    refine congrArg x (funext fun a => Fin.ext ?_)
    match a with
    | ⟨0, _⟩ => rfl
    | ⟨1, _⟩ => rfl
    | ⟨2, _⟩ => rfl
  | ⟨6, _⟩ => by
    show val_main_v12 (F := Ideal) x (ix2 b c) = windowSum x 0 100 (by omega) b c
    rw [val_main_v12_apply]
    refine (congrArg (· + _) (show val_main_cst_5 (F := Ideal) _ = (0 : EReal) from Ideal.ofBits_zero_f32)).trans ?_
    rw [zero_add]
    unfold windowSum
    refine Finset.sum_congr rfl fun k _ => ?_
    rw [val_main_v11_apply]
    refine congrArg x (funext fun a => Fin.ext ?_)
    match a with
    | ⟨0, _⟩ => rfl
    | ⟨1, _⟩ => show k.val = 0 + k.val; omega
    | ⟨2, _⟩ => rfl
  | ⟨7, _⟩ => by
    show val_main_v14 (F := Ideal) x (ix2 b c) = windowSum x 75 100 (by omega) b c
    rw [val_main_v14_apply]
    refine (congrArg (· + _) (show val_main_cst_6 (F := Ideal) _ = (0 : EReal) from Ideal.ofBits_zero_f32)).trans ?_
    rw [zero_add]
    unfold windowSum
    refine Finset.sum_congr rfl fun k _ => ?_
    rw [val_main_v13_apply]
    refine congrArg x (funext fun a => Fin.ext ?_)
    match a with
    | ⟨0, _⟩ => rfl
    | ⟨1, _⟩ => rfl
    | ⟨2, _⟩ => rfl

/-- The reference's last stage, the join of the eight results, is `G` of the argument array. -/
theorem joined_eq (x : SIn.Idx → EReal) : val_main_v15 (F := Ideal) x = G x := by
  funext j
  have hj1 : (j 1).val < 512 := (j 1).isLt
  unfold val_main_v15
  show concatenate S4096x512 1 (List.ofFn fun w : Fin 8 => (⟨S4096x64, stages x w⟩ : (s : Shape) × (s.Idx → EReal))) _ j = _
  refine (concatenate_ofFn_apply (t := S4096x512) (s₁ := S4096x64) (1 : Fin 2) (stages x) _ rfl 64 rfl j
    ⟨(j 1).val / 64, by omega⟩ rfl (ix2 ⟨(j 0).val, (j 0).isLt⟩ ⟨(j 1).val % 64, Nat.mod_lt _ (by decide)⟩) rfl
    (fun b hb => by match b with | ⟨0, _⟩ => rfl | ⟨1, _⟩ => exact absurd rfl hb)).trans ?_
  exact stage_eq x _ _ _

end Cert.RefSums

end
-- ==== Proof.BlockSums.lean ====
/-
  One grid point of the kernel holds a [128, 200, 64] block `X` of the array: the 128 batch entries from
  `128 · t` on, all rows, all columns. The body loads eight row windows of the block, adds each up over the row
  axis (a lane sum from the neutral accumulator, so a bare sum at the extended reals) and joins the eight
  [128, 64] sums along the last axis. A load through a rectangle at row offset `s` reads row `s + k` of the
  block, and the block's row is the array's, so window `w` of the block at (p, c) is window `w` of the array at
  batch entry `128 · t + p`: what the point leaves is block `t` of `SliceSums.G`.
  Everything here is stated over a variable block and a variable array, related by `hX`.
-/
import proofs.«100574_j39462159515841_1_alg».proof.Proof.Gen.KernelIdeal.Value
import proofs.«100574_j39462159515841_1_alg».proof.Proof.SliceSums
import Idealize.ShloMosaic.PureOps.Ideal.Laws

noncomputable section

namespace Cert.BlockSums

open Cert.KernelIdeal Cert.KernelIdeal.Gen Cert.KernelIdeal.Value Cert.SliceSums
open Idealize.ShloMosaic Idealize.ShloMosaic.ValueIdx
open scoped BigOperators

variable (X : Vec Ideal S128x200x64 .f32) (x : SIn.Idx → EReal) (t : Nat) (ht : t < 32)

/-- Window `w`'s lane sum over the block at (p, c) is window `w`'s sum over the array at batch entry
    `128 · t + p`, when the block is the array's block `t`. -/
theorem lane_eq (hX : ∀ (p : Fin 128) (r : Fin 200) (c : Fin 64), X (ix3 p r c) = x (ix3 ⟨t * 128 + p.val, by omega⟩ r c))
    (p : Fin 128) (c : Fin 64) :
    ∀ w : Fin 8, Cat1_0 (F := Ideal) (View.ld X r0_0) (View.ld X r0_1) (View.ld X r0_2) (View.ld X r0_3) (View.ld X r0_4) (View.ld X r0_5) (View.ld X r0_6) (View.ld X r0_7) w (ix2 p c)
      = windows x w ⟨t * 128 + p.val, by omega⟩ c
  | ⟨0, _⟩ => by
    show multiReduction (F := Ideal) .add [1] S128x64 (View.ld X r0_0) 0x00000000#32 reduces_S128x50x64_S128x64 (.inl rfl) rfl (ix2 p c)
      = windowSum x 0 50 (by omega) ⟨t * 128 + p.val, by have := p.isLt; omega⟩ c
    refine (Ideal.multiReduction_add_single (View.ld X r0_0) 0x00000000#32 reduces_S128x50x64_S128x64 (.inl rfl) rfl (ix2 p c)).trans ?_
    unfold windowSum
    refine Finset.sum_congr rfl fun k _ => ?_
    have hk : k.val < 50 := k.isLt
    refine (congrArg X (?_ : _ = ix3 p ⟨0 + k.val, by omega⟩ c)).trans (hX p _ c)
    funext a; apply Fin.ext
    match a with
    | ⟨0, _⟩ => show 0 + 1 * p.val = p.val; omega
    | ⟨1, _⟩ => show 0 + 1 * k.val = 0 + k.val; omega
    | ⟨2, _⟩ => show 0 + 1 * c.val = c.val; omega
  | ⟨1, _⟩ => by
    show multiReduction (F := Ideal) .add [1] S128x64 (View.ld X r0_1) 0x00000000#32 reduces_S128x75x64_S128x64 (.inl rfl) rfl (ix2 p c)
      = windowSum x 25 75 (by omega) ⟨t * 128 + p.val, by have := p.isLt; omega⟩ c
    refine (Ideal.multiReduction_add_single (View.ld X r0_1) 0x00000000#32 reduces_S128x75x64_S128x64 (.inl rfl) rfl (ix2 p c)).trans ?_
    unfold windowSum
    refine Finset.sum_congr rfl fun k _ => ?_
    have hk : k.val < 75 := k.isLt
    refine (congrArg X (?_ : _ = ix3 p ⟨25 + k.val, by omega⟩ c)).trans (hX p _ c)
    funext a; apply Fin.ext
    match a with
    | ⟨0, _⟩ => show 0 + 1 * p.val = p.val; omega
    | ⟨1, _⟩ => show 25 + 1 * k.val = 25 + k.val; omega
    | ⟨2, _⟩ => show 0 + 1 * c.val = c.val; omega
  | ⟨2, _⟩ => by
    show multiReduction (F := Ideal) .add [1] S128x64 (View.ld X r0_2) 0x00000000#32 reduces_S128x100x64_S128x64 (.inl rfl) rfl (ix2 p c)
      = windowSum x 50 100 (by omega) ⟨t * 128 + p.val, by have := p.isLt; omega⟩ c
    refine (Ideal.multiReduction_add_single (View.ld X r0_2) 0x00000000#32 reduces_S128x100x64_S128x64 (.inl rfl) rfl (ix2 p c)).trans ?_
    unfold windowSum
    refine Finset.sum_congr rfl fun k _ => ?_
    have hk : k.val < 100 := k.isLt
    refine (congrArg X (?_ : _ = ix3 p ⟨50 + k.val, by omega⟩ c)).trans (hX p _ c)
    funext a; apply Fin.ext
    match a with
    | ⟨0, _⟩ => show 0 + 1 * p.val = p.val; omega
    | ⟨1, _⟩ => show 50 + 1 * k.val = 50 + k.val; omega
    | ⟨2, _⟩ => show 0 + 1 * c.val = c.val; omega
  | ⟨3, _⟩ => by
    show multiReduction (F := Ideal) .add [1] S128x64 (View.ld X r0_3) 0x00000000#32 reduces_S128x200x64_S128x64 (.inl rfl) rfl (ix2 p c)
      = windowSum x 0 200 (by omega) ⟨t * 128 + p.val, by have := p.isLt; omega⟩ c
    refine (Ideal.multiReduction_add_single (View.ld X r0_3) 0x00000000#32 reduces_S128x200x64_S128x64 (.inl rfl) rfl (ix2 p c)).trans ?_
    unfold windowSum
    refine Finset.sum_congr rfl fun k _ => ?_
    have hk : k.val < 200 := k.isLt
    refine (congrArg X (?_ : _ = ix3 p ⟨0 + k.val, by omega⟩ c)).trans (hX p _ c)
    funext a; apply Fin.ext
    match a with
    | ⟨0, _⟩ => show 0 + 1 * p.val = p.val; omega
    | ⟨1, _⟩ => show 0 + 1 * k.val = 0 + k.val; omega
    | ⟨2, _⟩ => show 0 + 1 * c.val = c.val; omega
  | ⟨4, _⟩ => by
    show multiReduction (F := Ideal) .add [1] S128x64 (View.ld X r0_4) 0x00000000#32 reduces_S128x100x64_S128x64 (.inl rfl) rfl (ix2 p c)
      = windowSum x 100 100 (by omega) ⟨t * 128 + p.val, by have := p.isLt; omega⟩ c
    refine (Ideal.multiReduction_add_single (View.ld X r0_4) 0x00000000#32 reduces_S128x100x64_S128x64 (.inl rfl) rfl (ix2 p c)).trans ?_
    unfold windowSum
    refine Finset.sum_congr rfl fun k _ => ?_
    have hk : k.val < 100 := k.isLt
    refine (congrArg X (?_ : _ = ix3 p ⟨100 + k.val, by omega⟩ c)).trans (hX p _ c)
    funext a; apply Fin.ext
    match a with
    | ⟨0, _⟩ => show 0 + 1 * p.val = p.val; omega
    | ⟨1, _⟩ => show 100 + 1 * k.val = 100 + k.val; omega
    | ⟨2, _⟩ => show 0 + 1 * c.val = c.val; omega
  | ⟨5, _⟩ => by
    show multiReduction (F := Ideal) .add [1] S128x64 (View.ld X r0_5) 0x00000000#32 reduces_S128x50x64_S128x64 (.inl rfl) rfl (ix2 p c)
      = windowSum x 150 50 (by omega) ⟨t * 128 + p.val, by have := p.isLt; omega⟩ c
    refine (Ideal.multiReduction_add_single (View.ld X r0_5) 0x00000000#32 reduces_S128x50x64_S128x64 (.inl rfl) rfl (ix2 p c)).trans ?_
    unfold windowSum
    refine Finset.sum_congr rfl fun k _ => ?_
    have hk : k.val < 50 := k.isLt
    refine (congrArg X (?_ : _ = ix3 p ⟨150 + k.val, by omega⟩ c)).trans (hX p _ c)
    funext a; apply Fin.ext
    match a with
    | ⟨0, _⟩ => show 0 + 1 * p.val = p.val; omega
    | ⟨1, _⟩ => show 150 + 1 * k.val = 150 + k.val; omega
    | ⟨2, _⟩ => show 0 + 1 * c.val = c.val; omega
  | ⟨6, _⟩ => by
    show multiReduction (F := Ideal) .add [1] S128x64 (View.ld X r0_6) 0x00000000#32 reduces_S128x100x64_S128x64 (.inl rfl) rfl (ix2 p c)
      = windowSum x 0 100 (by omega) ⟨t * 128 + p.val, by have := p.isLt; omega⟩ c
    refine (Ideal.multiReduction_add_single (View.ld X r0_6) 0x00000000#32 reduces_S128x100x64_S128x64 (.inl rfl) rfl (ix2 p c)).trans ?_
    unfold windowSum
    refine Finset.sum_congr rfl fun k _ => ?_
    have hk : k.val < 100 := k.isLt
    refine (congrArg X (?_ : _ = ix3 p ⟨0 + k.val, by omega⟩ c)).trans (hX p _ c)
    funext a; apply Fin.ext
    match a with
    | ⟨0, _⟩ => show 0 + 1 * p.val = p.val; omega
    | ⟨1, _⟩ => show 0 + 1 * k.val = 0 + k.val; omega
    | ⟨2, _⟩ => show 0 + 1 * c.val = c.val; omega
  | ⟨7, _⟩ => by
    show multiReduction (F := Ideal) .add [1] S128x64 (View.ld X r0_7) 0x00000000#32 reduces_S128x100x64_S128x64 (.inl rfl) rfl (ix2 p c)
      = windowSum x 75 100 (by omega) ⟨t * 128 + p.val, by have := p.isLt; omega⟩ c
    refine (Ideal.multiReduction_add_single (View.ld X r0_7) 0x00000000#32 reduces_S128x100x64_S128x64 (.inl rfl) rfl (ix2 p c)).trans ?_
    unfold windowSum
    refine Finset.sum_congr rfl fun k _ => ?_
    have hk : k.val < 100 := k.isLt
    refine (congrArg X (?_ : _ = ix3 p ⟨75 + k.val, by omega⟩ c)).trans (hX p _ c)
    funext a; apply Fin.ext
    match a with
    | ⟨0, _⟩ => show 0 + 1 * p.val = p.val; omega
    | ⟨1, _⟩ => show 75 + 1 * k.val = 75 + k.val; omega
    | ⟨2, _⟩ => show 0 + 1 * c.val = c.val; omega

/-- What the point leaves in its [128, 512] block, at block index `y`, is `G` of the array at
    (128 · t + y₀, y₁). -/
theorem block_eq (hX : ∀ (p : Fin 128) (r : Fin 200) (c : Fin 64), X (ix3 p r c) = x (ix3 ⟨t * 128 + p.val, by omega⟩ r c))
    (y : S128x512.Idx) (i : SOut.Idx) (h0 : (i 0).val = t * 128 + (y 0).val) (h1 : (i 1).val = (y 1).val) :
    E1 (F := Ideal) (View.ld X r0_0) (View.ld X r0_1) (View.ld X r0_2) (View.ld X r0_3) (View.ld X r0_4) (View.ld X r0_5) (View.ld X r0_6) (View.ld X r0_7) y = G x i := by
  have hy0 : (y 0).val < 128 := (y 0).isLt
  have hy1 : (y 1).val < 512 := (y 1).isLt
  have e := lane_eq X x t ht hX ⟨(y 0).val, hy0⟩ ⟨(y 1).val % 64, Nat.mod_lt _ (by decide)⟩ ⟨(y 1).val / 64, by omega⟩
  have ei : ix1_0 y = ix2 (⟨(y 0).val, hy0⟩ : Fin 128) (⟨(y 1).val % 64, Nat.mod_lt _ (by decide)⟩ : Fin 64) := by
    funext a; match a with | ⟨0, _⟩ => rfl | ⟨1, _⟩ => rfl
  show Cat1_0 (F := Ideal) (View.ld X r0_0) (View.ld X r0_1) (View.ld X r0_2) (View.ld X r0_3) (View.ld X r0_4) (View.ld X r0_5) (View.ld X r0_6) (View.ld X r0_7) (csel1_0 y) (ix1_0 y) = _
  rw [ei]
  refine e.trans ?_
  unfold G
  congr 1
  · exact Fin.ext (by show (y 1).val / 64 = (i 1).val / 64; rw [h1])
  · exact Fin.ext (by show t * 128 + (y 0).val = (i 0).val; rw [h0])
  · exact Fin.ext (by show (y 1).val % 64 = (i 1).val % 64; rw [h1])

end Cert.BlockSums

end
-- ==== Proof.KernelArray.lean ====
/-
  From one grid point to the whole array. The grid has 32 points; point `t` stages batch entries
  `128 · t, …, 128 · t + 127` of the input (all rows and columns) and writes back rows
  `128 · t, …, 128 · t + 127` of the [4096, 512] result (all 512 columns). What it writes is block `t` of
  `SliceSums.G` of the input array (the block lemma), every result row lies in the block of the point
  `row / 128`, and so the result array ends as `G` of the input.
-/
import proofs.«100574_j39462159515841_1_alg».proof.Proof.BlockSums

noncomputable section

namespace Cert.KernelArray

open Cert.KernelIdeal Cert.KernelIdeal.Gen Cert.KernelIdeal.Value Cert.SliceSums
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two index maps over the 32 points: the input's block index is (t, 0, 0), the result's (t, 0). -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0)

/-- The input array as the region finds it, at its literal type. -/
abbrev xarr (c : Dev nD) : SIn.Idx → EReal := V m c main_arg0
/-- The input's block at point `t`, at its literal type. -/
abbrev xblk (c : Dev nD) (t : Fin cfg0.N) : Vec Ideal S128x200x64 .f32 := iblk m c 0 t

/-- Entry (p, r, cc) of the block at point `t` is entry (128 · t + p, r, cc) of the array. -/
theorem blk_read (c : Dev nD) (t : Fin cfg0.N) (ht : t.val < 32) (p : Fin 128) (r : Fin 200) (cc : Fin 64) :
    xblk m c t (ix3 p r cc) = xarr m c (ix3 ⟨t.val * 128 + p.val, by omega⟩ r cc) := by
  obtain ⟨e0, e1, e2, -, -⟩ := idx_facts t
  show V m c main_arg0 (((cfg0.win 0).blk t).view.emb (ix3 p r cc)) = V m c main_arg0 _
  refine congrArg (V m c main_arg0) ?_
  funext a; apply Fin.ext
  match a with
  | ⟨0, _⟩ => show win0_0.index t (0 : Fin 3) * 128 + 1 * p.val = t.val * 128 + p.val; omega
  | ⟨1, _⟩ => show win0_0.index t (1 : Fin 3) * 200 + 1 * r.val = r.val; omega
  | ⟨2, _⟩ => show win0_0.index t (2 : Fin 3) * 64 + 1 * cc.val = cc.val; omega

/-- What point `t` writes back is block `t` of `G` of the input array. -/
theorem flushed_eq (c : Dev nD) (t : Fin cfg0.N) :
    (dats m 0 c).flushed 1 t = ((cfg0.win 1).blk t).view.read (Elt Ideal) (G (xarr m c)) := by
  have ht : t.val < 32 := t.isLt
  obtain ⟨-, -, -, e3, e4⟩ := idx_facts t
  rw [flushed1]
  funext y
  show out0_1 (xblk m c t) y = G (xarr m c) (((cfg0.win 1).blk t).view.emb y)
  unfold out0_1
  refine (canon1_eq (F := Ideal) (View.ld (xblk m c t) r0_0) (View.ld (xblk m c t) r0_1) (View.ld (xblk m c t) r0_2) (View.ld (xblk m c t) r0_3) (View.ld (xblk m c t) r0_4) (View.ld (xblk m c t) r0_5) (View.ld (xblk m c t) r0_6) (View.ld (xblk m c t) r0_7) y).trans ?_
  refine Cert.BlockSums.block_eq (xblk m c t) (xarr m c) t.val ht (blk_read m c t ht) y _ ?_ ?_
  · show win0_1.index t (0 : Fin 2) * 128 + 1 * (y 0).val = t.val * 128 + (y 0).val; omega
  · show win0_1.index t (1 : Fin 2) * 512 + 1 * (y 1).val = (y 1).val; omega

/-- An index of the result is in point `t`'s block iff each coordinate is in the block's range on its axis. -/
theorem mem_blk (t : Fin cfg0.N) (i : S4096x512.Idx) :
    i ∈ ((cfg0.win 1).blk t).view.set ↔ ∀ a : Fin 2, win0_1.index t a * S128x512.size a ≤ (i a).val
      ∧ (i a).val < win0_1.index t a * S128x512.size a + S128x512.size a := by
  show i ∈ ((View.whole main_v0).slice (win0_1.rect t)).set ↔ _
  rw [View.set_slice_whole, Rect.mem_set_unit]
  exact Iff.rfl

/-- Every index of the result lies in the block of the point `row / 128`, which writes back. -/
theorem cover (i : S4096x512.Idx) :
    ∃ t : Fin cfg0.N, (cfg0.win 1).flush t = true ∧ i ∈ ((cfg0.win 1).blk t).view.set := by
  have hi0 : (i 0).val < 4096 := (i 0).isLt
  have hi1 : (i 1).val < 512 := (i 1).isLt
  have ht : (i 0).val / 128 < 32 := by omega
  obtain ⟨-, -, -, e3, e4⟩ := idx_facts ⟨(i 0).val / 128, ht⟩
  have e3' : win0_1.index ⟨(i 0).val / 128, ht⟩ (0 : Fin 2) = (i 0).val / 128 := e3
  refine ⟨⟨(i 0).val / 128, ht⟩, flush0_1 _, ?_⟩
  rw [mem_blk]
  intro a
  match a with
  | ⟨0, _⟩ =>
    show win0_1.index ⟨(i 0).val / 128, ht⟩ (0 : Fin 2) * 128 ≤ (i 0).val
      ∧ (i 0).val < win0_1.index ⟨(i 0).val / 128, ht⟩ (0 : Fin 2) * 128 + 128
    omega
  | ⟨1, _⟩ =>
    show win0_1.index ⟨(i 0).val / 128, ht⟩ (1 : Fin 2) * 512 ≤ (i 1).val
      ∧ (i 1).val < win0_1.index ⟨(i 0).val / 128, ht⟩ (1 : Fin 2) * 512 + 512
    omega

/-- The result array after the run is `G` of the input array. -/
theorem final (c : Dev nD) : (dats m 0 c).arrAt 1 cfg0.N = G (xarr m c) :=
  (dats m 0 c).arrAt_eq_of_cover 1 (G (xarr m c)) (fun t _ => flushed_eq m c t) cover

/-- The kernel's run: every weakly fair execution ends with the result at `G` of the argument, the argument
    unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelArray

end
-- ==== Proof.lean ====
/-
  Eight overlapping row windows of a [4096, 200, 64] array — rows [0, 50), [25, 100), [50, 150), [0, 200),
  [100, 200), [150, 200), [0, 100), [75, 175) — each added up over its rows, the eight [4096, 64] sums laid side by
  side into a [4096, 512] result.
  The kernel walks the batch axis in 32 blocks of 128 entries: at each block it loads the eight windows of the
  block, adds each up over the row axis and stores the eight sums joined along the last axis. The reference slices
  each window out of the whole array, adds it up from zero over the row axis and joins the eight results.
  Over the extended reals both are the function `SliceSums.G`: a lane sum from the neutral accumulator is the
  bare sum over the window's rows, the reference's sum is zero plus that sum, a load or a slice at row offset
  `s` reads row `s + k`, and batch entry `p` of block `t` is batch entry `128 · t + p` of the array. No
  distributive step is taken, so the inputs' finiteness is never used.
  The three frames are the generated ones (the reference's is its run with the result dropped); the ideal pass
  rewrote nothing, so the kernel's idealization is its own text read over the extended reals.
-/
import proofs.«100574_j39462159515841_1_alg».proof.Defs
import proofs.«100574_j39462159515841_1_alg».proof.Proof.Gen.Kernel
import proofs.«100574_j39462159515841_1_alg».proof.Proof.Gen.Kernel.Skeleton
import proofs.«100574_j39462159515841_1_alg».proof.Proof.Gen.Kernel.Launch
import proofs.«100574_j39462159515841_1_alg».proof.Proof.Gen.Kernel.Points
import proofs.«100574_j39462159515841_1_alg».proof.Proof.Gen.Kernel.Frame
import proofs.«100574_j39462159515841_1_alg».proof.Proof.Gen.KernelIdeal
import proofs.«100574_j39462159515841_1_alg».proof.Proof.Gen.KernelIdeal.Skeleton
import proofs.«100574_j39462159515841_1_alg».proof.Proof.Gen.KernelIdeal.Launch
import proofs.«100574_j39462159515841_1_alg».proof.Proof.Gen.KernelIdeal.Points
import proofs.«100574_j39462159515841_1_alg».proof.Proof.Gen.KernelIdeal.Frame
import proofs.«100574_j39462159515841_1_alg».proof.Proof.Gen.ReferenceIdeal
import proofs.«100574_j39462159515841_1_alg».proof.Proof.Gen.Pre_finite_inputs
import proofs.«100574_j39462159515841_1_alg».proof.Proof.Gen.KernelIdeal.Value
import proofs.«100574_j39462159515841_1_alg».proof.Proof.Gen.ReferenceIdeal.Run
import proofs.«100574_j39462159515841_1_alg».proof.Proof.Gen.ReferenceIdeal.Read
import proofs.«100574_j39462159515841_1_alg».proof.Proof.RefSums
import proofs.«100574_j39462159515841_1_alg».proof.Proof.KernelArray
import Idealize.ShloMosaic.Adequacy
import Idealize.ShloMosaic.Init

noncomputable section

namespace Cert.Proof

open Idealize.ShloMosaic Idealize.SL.Sem

/-- The kernel as printed runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument, the kernel's result array ends at `G` of the argument (the 32
    blocks cover it, each block `G`'s), and the reference's join of its eight sums is `G` of the same argument. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefSums.joined_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
